-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S100000x256 : Shape := ⟨2, ![100000, 256]⟩
abbrev S100000x128 : Shape := ⟨2, ![100000, 128]⟩
abbrev S128x32 : Shape := ⟨2, ![128, 32]⟩
abbrev S32 : Shape := ⟨1, ![32]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S100000x128 : S_.BroadcastsInDim S100000x128 (![] : Fin 0 → Fin S100000x128.rank)
  reducesTo_S100000x128_S_d0_1 : S100000x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S4096x256 .f32) (main_arg1 : FVec F S100000x256 .f32) (main_arg2 : FVec F S100000x128 .f32) (main_arg3 : FVec F S128x32 .f32) (main_arg4 : FVec F S32 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg4 main_v13 main_v16
-- ==== Kernel.lean ====
abbrev S4096x256 : Shape := ⟨2, ![4096, 256]⟩
abbrev S100000x256 : Shape := ⟨2, ![100000, 256]⟩
abbrev S100000x128 : Shape := ⟨2, ![100000, 128]⟩
abbrev S128x32 : Shape := ⟨2, ![128, 32]⟩
abbrev S32 : Shape := ⟨1, ![32]⟩
abbrev S1x32 : Shape := ⟨2, ![1, 32]⟩
abbrev S4096x32 : Shape := ⟨2, ![4096, 32]⟩
abbrev S5000x256 : Shape := ⟨2, ![5000, 256]⟩
abbrev S5000x128 : Shape := ⟨2, ![5000, 128]⟩
abbrev S256x32 : Shape := ⟨2, ![256, 32]⟩
abbrev S5000x32 : Shape := ⟨2, ![5000, 32]⟩

abbrev nBuf : Space → Nat
  | .hbm => 7
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S100000x256, .f32⟩
  | .hbm, ⟨2, _⟩ => ⟨S100000x128, .f32⟩
  | .hbm, ⟨3, _⟩ => ⟨S128x32, .f32⟩
  | .hbm, ⟨4, _⟩ => ⟨S32, .f32⟩
  | .hbm, ⟨5, _⟩ => ⟨S1x32, .f32⟩
  | .hbm, ⟨6, _⟩ => ⟨S4096x32, .f32⟩
  | .local _ .vmem, ⟨0, _⟩ => ⟨S5000x256, .f32⟩
  | .local _ .vmem, ⟨1, _⟩ => ⟨S5000x256, .f32⟩
  | .local _ .vmem, ⟨2, _⟩ => ⟨S5000x128, .f32⟩
  | .local _ .vmem, ⟨3, _⟩ => ⟨S5000x128, .f32⟩
  | .local _ .vmem, ⟨4, _⟩ => ⟨S128x32, .f32⟩
  | .local _ .vmem, ⟨5, _⟩ => ⟨S1x32, .f32⟩
  | .local _ .vmem, ⟨6, _⟩ => ⟨S4096x256, .f32⟩
  | .local _ .vmem, ⟨7, _⟩ => ⟨S4096x32, .f32⟩
  | .local _ .vmem, ⟨8, _⟩ => ⟨S256x32, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v19 : BitVec 1 := Scalar.cmpi .eq arg0 c19_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S32_S1x32 : S32.ShapeCasts S1x32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S5000x128_S5000x128_0_0 : ∀ a, (![0, 0] : Fin 2 → Nat) a + S5000x128.size a ≤ S5000x128.size a
  h_S5000x128 : 0 < S5000x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x256_S5000x256_0_0 : ∀ a, (![0, 0] : Fin 2 → Nat) a + S5000x256.size a ≤ S5000x256.size a
  h_S5000x256 : 0 < S5000x256.numel
  inb_S4096x256_S4096x256_0_0 : ∀ a, (![0, 0] : Fin 2 → Nat) a + S4096x256.size a ≤ S4096x256.size a
  h_S4096x256 : 0 < S4096x256.numel
  inb_S4096x32_S4096x32_0_0 : ∀ a, (![0, 0] : Fin 2 → Nat) a + S4096x32.size a ≤ S4096x32.size a
  h_S4096x32 : 0 < S4096x32.numel
  dot_S5000x128_S128x32_S5000x32_1_0_0_1_n_n_wf : DotDims.WF S5000x128 S128x32 S5000x32 [1] [0] [0] [1] [] []
  dot_S5000x256_S5000x32_S256x32_0_0_1_1_n_n_wf : DotDims.WF S5000x256 S5000x32 S256x32 [0] [0] [1] [1] [] []
  dot_S4096x256_S256x32_S4096x32_1_0_0_1_n_n_wf : DotDims.WF S4096x256 S256x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x256.size a
  hwx0_4 : ∀ i : grid0.Coords, EltTy.bits .f32 = 32 ∨ (Rect.block (s := S4096x256) S4096x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x32.size a ≤ S4096x32.size a
  hwx0_5 : ∀ i : grid0.Coords, EltTy.bits .f32 = 32 ∨ (Rect.block (s := S4096x32) S4096x32.size (cc0_transform_5 i) (hinb0_5 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x256_S5000x32_S256x32_0_0_1_1_n_n : DotDims S5000x256 S5000x32 S256x32 where
  lhsContracting := [0]
  rhsContracting := [0]
  lhsNonContracting := [1]
  rhsNonContracting := [1]
  lhsBatch := []
  rhsBatch := []
  wf := dot_S5000x256_S5000x32_S256x32_0_0_1_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf

abbrev win0_0 : Pipeline.Window sig grid0 :=
  Pipeline.Window.ofSpec (Memref.whole main_arg1) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S4096x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4096x32.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x256 : Shape := ⟨2, ![4096, 256]⟩
abbrev S100000x256 : Shape := ⟨2, ![100000, 256]⟩
abbrev S100000x128 : Shape := ⟨2, ![100000, 128]⟩
abbrev S128x32 : Shape := ⟨2, ![128, 32]⟩
abbrev S32 : Shape := ⟨1, ![32]⟩
abbrev S100000x32 : Shape := ⟨2, ![100000, 32]⟩
abbrev S1x32 : Shape := ⟨2, ![1, 32]⟩
abbrev S_ : Shape := ⟨0, ![]⟩
abbrev S256x100000 : Shape := ⟨2, ![256, 100000]⟩
abbrev S256x32 : Shape := ⟨2, ![256, 32]⟩
abbrev S4096x32 : Shape := ⟨2, ![4096, 32]⟩

abbrev nBuf : Space → Nat
  | .hbm => 21
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S100000x256, .f32⟩
  | .hbm, ⟨2, _⟩ => ⟨S100000x128, .f32⟩
  | .hbm, ⟨3, _⟩ => ⟨S128x32, .f32⟩
  | .hbm, ⟨4, _⟩ => ⟨S32, .f32⟩
  | .hbm, ⟨5, _⟩ => ⟨S100000x32, .f32⟩
  | .hbm, ⟨6, _⟩ => ⟨S1x32, .f32⟩
  | .hbm, ⟨7, _⟩ => ⟨S100000x32, .f32⟩
  | .hbm, ⟨8, _⟩ => ⟨S100000x32, .f32⟩
  | .hbm, ⟨9, _⟩ => ⟨S100000x32, .f32⟩
  | .hbm, ⟨10, _⟩ => ⟨S100000x32, .f32⟩
  | .hbm, ⟨11, _⟩ => ⟨S_, .f32⟩
  | .hbm, ⟨12, _⟩ => ⟨S100000x32, .f32⟩
  | .hbm, ⟨13, _⟩ => ⟨S100000x32, .f32⟩
  | .hbm, ⟨14, _⟩ => ⟨S_, .f32⟩
  | .hbm, ⟨15, _⟩ => ⟨S100000x32, .f32⟩
  | .hbm, ⟨16, _⟩ => ⟨S100000x32, .f32⟩
  | .hbm, ⟨17, _⟩ => ⟨S100000x32, .f32⟩
  | .hbm, ⟨18, _⟩ => ⟨S256x100000, .f32⟩
  | .hbm, ⟨19, _⟩ => ⟨S256x32, .f32⟩
  | .hbm, ⟨20, _⟩ => ⟨S4096x32, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S100000x256_S256x100000_1_0 : S100000x256.Transposes [1, 0] S256x100000
  dot_S100000x128_S128x32_S100000x32_1_0_0_1_n_n_wf : DotDims.WF S100000x128 S128x32 S100000x32 [1] [0] [0] [1] [] []
  dot_S256x100000_S100000x32_S256x32_1_0_0_1_n_n_wf : DotDims.WF S256x100000 S100000x32 S256x32 [1] [0] [0] [1] [] []
  dot_S4096x256_S256x32_S4096x32_1_0_0_1_n_n_wf : DotDims.WF S4096x256 S256x32 S4096x32 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S256x100000_S100000x32_S256x32_1_0_0_1_n_n : DotDims S256x100000 S100000x32 S256x32 where
  lhsContracting := [1]
  rhsContracting := [0]
  lhsNonContracting := [0]
  rhsNonContracting := [1]
  lhsBatch := []
  rhsBatch := []
  wf := dot_S256x100000_S100000x32_S256x32_1_0_0_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf

class Facts : Prop extends Facts₀ where

variable [Facts]
-- ==== Proof.KernelPieces.lean ====
/-
  What one grid point leaves behind, as values of the blocks it was given (at any float instance).

  The body keeps a 256 × 32 accumulator in scratch memory. At every point it stores into it
  `acc + (metapath block)ᵀ · swish (card block · W + b)`, one whole store (`k0_pay2`). At the first point `acc` is the zero
  block the body has just stored (`k0_pay1`) and reads back; at the later points it is what the previous point left. At
  the last point the body then reads the accumulator back and stores `pools · acc` into the output block (`k0_pay3`).
  Each store covers its whole buffer and each load reads a whole buffer, so every case's contents are one payload
  applied to the blocks.
-/
import proofs.«110129_g73882027425809_cont_9to1c4b_278_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every rectangle the body touches starts at the origin of its buffer. -/
theorem origin : (![0, 0] : Fin 2 → Nat) = fun _ => 0 := funext fun a => by fin_cases a <;> rfl

/-- A middle point: the accumulator ends at the step's payload over what the point before left (`acc`). -/
theorem scratch_mid (c : Dev nD) (i : grid0.Coords) (arg1 : Memref sig .tc .vmem S5000x256 .f32) (harg1 : arg1.IsWhole) (arg2 : Memref sig .tc .vmem S5000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S4096x256 .f32) (harg5 : arg5.IsWhole) (arg6 : Memref sig .tc .vmem S4096x32 .f32) (harg6 : arg6.IsWhole) (arg7 : Memref sig .tc .vmem S256x32 .f32) (harg7 : arg7.IsWhole) (hc0 : ¬cond0_0 i) (hc1 : ¬cond0_1 i)
    (x0 : Vec F S5000x256 .f32) (x1 : Vec F S5000x128 .f32) (x2 : Vec F S128x32 .f32) (x3 : Vec F S1x32 .f32) (x4 : Vec F S4096x256 .f32) (acc : Vec F S256x32 .f32) :
    sout0_B_0 c i arg1 harg1 arg2 harg2 arg3 harg3 arg4 harg4 arg5 harg5 arg6 harg6 arg7 harg7 hc0 hc1 x0 x1 x2 x3 x4 acc = k0_pay2 x1 x2 x3 acc x0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 acc)]
  unfold kernelRun0_B
  dsimp only
  rw [View.canon_unit_zero origin]
  simp only [View.readAt_eq_ld, harg1.read_unread, harg2.read_unread, harg3.read_unread, harg4.read_unread, harg7.read_unread,
    View.ld_unit_zero (S := S5000x256) origin, View.ld_unit_zero (S := S5000x128) origin, View.ld_unit_zero (S := S128x32) origin,
    View.ld_unit_zero (S := S1x32) origin, View.ld_unit_zero (S := S256x32) origin]

/-- The first point: the accumulator ends at the step's payload over the zero block just stored. -/
theorem scratch_first (c : Dev nD) (i : grid0.Coords) (arg1 : Memref sig .tc .vmem S5000x256 .f32) (harg1 : arg1.IsWhole) (arg2 : Memref sig .tc .vmem S5000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S4096x256 .f32) (harg5 : arg5.IsWhole) (arg6 : Memref sig .tc .vmem S4096x32 .f32) (harg6 : arg6.IsWhole) (arg7 : Memref sig .tc .vmem S256x32 .f32) (harg7 : arg7.IsWhole) (hc0 : cond0_0 i) (hc1 : ¬cond0_1 i)
    (x0 : Vec F S5000x256 .f32) (x1 : Vec F S5000x128 .f32) (x2 : Vec F S128x32 .f32) (x3 : Vec F S1x32 .f32) (x4 : Vec F S4096x256 .f32) :
    sout0_A_0 c i arg1 harg1 arg2 harg2 arg3 harg3 arg4 harg4 arg5 harg5 arg6 harg6 arg7 harg7 hc0 hc1 x0 x1 x2 x3 x4 = k0_pay2 x1 x2 x3 (k0_pay1 (F := F)) x0 := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_words
  rw [View.canon_cons_unit_zero (S := S256x32) origin, View.readCov_unit_zero (S := S256x32) _ origin]
  simp only [View.readAt_eq_ld, harg1.read_unread, harg2.read_unread, harg3.read_unread, harg4.read_unread,
    View.ld_unit_zero (S := S5000x256) origin, View.ld_unit_zero (S := S5000x128) origin, View.ld_unit_zero (S := S128x32) origin,
    View.ld_unit_zero (S := S1x32) origin, View.ld_unit_zero (S := S256x32) origin]

/-- The last point: the accumulator ends at the step's payload over what the point before left, -/
theorem scratch_last (c : Dev nD) (i : grid0.Coords) (arg1 : Memref sig .tc .vmem S5000x256 .f32) (harg1 : arg1.IsWhole) (arg2 : Memref sig .tc .vmem S5000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S4096x256 .f32) (harg5 : arg5.IsWhole) (arg6 : Memref sig .tc .vmem S4096x32 .f32) (harg6 : arg6.IsWhole) (arg7 : Memref sig .tc .vmem S256x32 .f32) (harg7 : arg7.IsWhole) (hc0 : ¬cond0_0 i) (hc1 : cond0_1 i)
    (x0 : Vec F S5000x256 .f32) (x1 : Vec F S5000x128 .f32) (x2 : Vec F S128x32 .f32) (x3 : Vec F S1x32 .f32) (x4 : Vec F S4096x256 .f32) (acc : Vec F S256x32 .f32) :
    sout0_C_0 c i arg1 harg1 arg2 harg2 arg3 harg3 arg4 harg4 arg5 harg5 arg6 harg6 arg7 harg7 hc0 hc1 x0 x1 x2 x3 x4 acc = k0_pay2 x1 x2 x3 acc x0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 x4 acc)]
  unfold kernelRun0_C
  dsimp only
  sl_unfold_words
  rw [View.canon_unit_zero origin]
  simp only [View.readAt_eq_ld, harg1.read_unread, harg2.read_unread, harg3.read_unread, harg4.read_unread, harg7.read_unread,
    View.ld_unit_zero (S := S5000x256) origin, View.ld_unit_zero (S := S5000x128) origin, View.ld_unit_zero (S := S128x32) origin,
    View.ld_unit_zero (S := S1x32) origin, View.ld_unit_zero (S := S256x32) origin]

/-- and the output block at the pools times that accumulator. -/
theorem out_last (c : Dev nD) (i : grid0.Coords) (arg1 : Memref sig .tc .vmem S5000x256 .f32) (harg1 : arg1.IsWhole) (arg2 : Memref sig .tc .vmem S5000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S4096x256 .f32) (harg5 : arg5.IsWhole) (arg6 : Memref sig .tc .vmem S4096x32 .f32) (harg6 : arg6.IsWhole) (arg7 : Memref sig .tc .vmem S256x32 .f32) (harg7 : arg7.IsWhole) (hc0 : ¬cond0_0 i) (hc1 : cond0_1 i)
    (x0 : Vec F S5000x256 .f32) (x1 : Vec F S5000x128 .f32) (x2 : Vec F S128x32 .f32) (x3 : Vec F S1x32 .f32) (x4 : Vec F S4096x256 .f32) (acc : Vec F S256x32 .f32) :
    out0_C_5 c i arg1 harg1 arg2 harg2 arg3 harg3 arg4 harg4 arg5 harg5 arg6 harg6 arg7 harg7 hc0 hc1 x0 x1 x2 x3 x4 acc = k0_pay3 x4 (k0_pay2 x1 x2 x3 acc x0) := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 acc)]
  unfold kernelRun0_C
  dsimp only
  sl_unfold_words
  rw [View.canon_unit_zero origin]
  simp only [View.readAt_eq_ld, harg1.read_unread, harg2.read_unread, harg3.read_unread, harg4.read_unread, harg5.read_unread,
    harg7.read_unread, View.readCov_unit_zero (S := S256x32) _ origin,
    View.ld_unit_zero (S := S5000x256) origin, View.ld_unit_zero (S := S5000x128) origin, View.ld_unit_zero (S := S128x32) origin,
    View.ld_unit_zero (S := S1x32) origin, View.ld_unit_zero (S := S256x32) origin, View.ld_unit_zero (S := S4096x256) origin]

end Cert.KernelIdeal.Pieces

end
-- ==== Proof.PathSum.lean ====
/-
  The mathematics of the metapath embedding, stated once over literal shapes, on the extended reals.

  For card embeddings `card` (100000 × 128), dense weights `W` (128 × 32) and bias `b` (32), row `n` of the dense layer
  before its activation is `preact n j = (∑ d, card n d · W d j) + b j`, and the activation is the swish
  `x · σ(x)` with `σ` the logistic function. The path embedding sums, over all 100000 rows, the metapath weight of the
  row times its activated value, `pathEmb p j = ∑ n, mpath n p · swish (preact n j)`, and the result multiplies the batch
  pools into it, `result b j = ∑ p, pools b p · pathEmb p j`.

  The only law used between the two programs is that a sum over the 100000 rows is the sum, over 20 consecutive chunks
  of 5000 rows, of the chunks' sums: sums over finite index sets in a commutative monoid re-index along a bijection and
  split over a product. No distributivity and no cancellation is involved, so nothing here asks the entries to be finite.
-/
import Idealize.ShloMosaic.PureOps.Ideal
import Idealize.ShloMosaic.Lib.ValueIdx

noncomputable section

namespace Cert.PathSum

open Idealize.ShloMosaic Idealize.ShloMosaic.ValueIdx

/-- A matrix of extended reals with `r` rows and `c` columns, and a vector of `n` entries. -/
abbrev Mat (r c : Nat) : Type := (⟨2, ![r, c]⟩ : Shape).Idx → EReal
abbrev Vec1 (n : Nat) : Type := (⟨1, ![n]⟩ : Shape).Idx → EReal

/-- The swish activation `x · σ(x)`. -/
def swish (x : EReal) : EReal := x * Ideal.logistic x

/-- Row `n`, column `j` of the dense layer before its activation. -/
def preact (card : Mat 100000 128) (W : Mat 128 32) (b : Vec1 32) (n : Fin 100000) (j : Fin 32) : EReal :=
  (∑ d : Fin 128, card (ix2 n d) * W (ix2 d j)) + b (ix1 j)

/-- Row `n`'s addend to entry `(p, j)` of the path embedding. -/
def term (mpath : Mat 100000 256) (card : Mat 100000 128) (W : Mat 128 32) (b : Vec1 32) (p : Fin 256) (j : Fin 32)
    (n : Fin 100000) : EReal :=
  mpath (ix2 n p) * swish (preact card W b n j)

/-- Entry `(p, j)` of the path embedding: the sum of the addends of all rows. -/
def pathEmb (mpath : Mat 100000 256) (card : Mat 100000 128) (W : Mat 128 32) (b : Vec1 32) (p : Fin 256) (j : Fin 32) : EReal :=
  ∑ n : Fin 100000, term mpath card W b p j n

/-- The result: the batch pools times the path embedding. -/
def result (pools : Mat 4096 256) (mpath : Mat 100000 256) (card : Mat 100000 128) (W : Mat 128 32) (b : Vec1 32) : Mat 4096 32 :=
  fun i => ∑ p : Fin 256, pools (ix2 (i 0) p) * pathEmb mpath card W b p (i 1)

/-! ## Twenty chunks of five thousand rows -/

/-- Row `r` of chunk `s` is row `5000 s + r` of the whole. -/
def rowOf (s : Fin 20) (r : Fin 5000) : Fin 100000 :=
  ⟨5000 * s.val + r.val, by have := s.isLt; have := r.isLt; omega⟩

@[simp] theorem rowOf_val (s : Fin 20) (r : Fin 5000) : (rowOf s r).val = 5000 * s.val + r.val := rfl

/-- A row is a chunk and a position inside it: quotient and remainder by 5000. -/
def chunkEquiv : Fin 20 × Fin 5000 ≃ Fin 100000 where
  toFun x := rowOf x.1 x.2
  invFun n := (⟨n.val / 5000, by have := n.isLt; omega⟩, ⟨n.val % 5000, by omega⟩)
  left_inv x := by
    obtain ⟨⟨s, hs⟩, ⟨r, hr⟩⟩ := x
    refine Prod.ext (Fin.ext ?_) (Fin.ext ?_)
    · show (5000 * s + r) / 5000 = s
      omega
    · show (5000 * s + r) % 5000 = r
      omega
  right_inv n := by
    obtain ⟨n, hn⟩ := n
    refine Fin.ext ?_
    show 5000 * (n / 5000) + n % 5000 = n
    omega

/-- A sum over the rows is the sum over the chunks of each chunk's sum. -/
theorem sum_rows_eq_sum_chunks {M : Type*} [AddCommMonoid M] (f : Fin 100000 → M) :
    ∑ n, f n = ∑ s : Fin 20, ∑ r : Fin 5000, f (rowOf s r) := by
  rw [← Equiv.sum_comp chunkEquiv f, Fintype.sum_prod_type]
  rfl

/-- Chunk `s`'s sum, as a function of every natural number (zero past the last chunk). -/
def chunkAdd {M : Type*} [AddCommMonoid M] (f : Fin 100000 → M) (s : ℕ) : M :=
  if h : s < 20 then ∑ r : Fin 5000, f (rowOf ⟨s, h⟩ r) else 0

theorem chunkAdd_of_lt {M : Type*} [AddCommMonoid M] (f : Fin 100000 → M) (s : ℕ) (h : s < 20) :
    chunkAdd f s = ∑ r : Fin 5000, f (rowOf ⟨s, h⟩ r) := dif_pos h

/-- The chunks' sums, added over the twenty chunks in order, are the sum over all rows. -/
theorem sum_range_chunkAdd {M : Type*} [AddCommMonoid M] (f : Fin 100000 → M) :
    ∑ s ∈ Finset.range 20, chunkAdd f s = ∑ n, f n := by
  rw [Finset.sum_range, sum_rows_eq_sum_chunks]
  exact Finset.sum_congr rfl fun s _ => chunkAdd_of_lt f s.val s.isLt

/-! ## One chunk as the kernel sees it -/

/-- What a block of 5000 metapath rows `xm` and the matching block of card rows `xc` add to entry `(p, j)`, the bias
    arriving as a 1 × 32 matrix. -/
def blockAdd (xm : Mat 5000 256) (xc : Mat 5000 128) (W : Mat 128 32) (b2 : Mat 1 32) (p : Fin 256) (j : Fin 32) : EReal :=
  ∑ r : Fin 5000, xm (ix2 r p) * swish ((∑ d : Fin 128, xc (ix2 r d) * W (ix2 d j)) + b2 (ix2 0 j))

/-- When the two blocks are chunk `s` of the whole arrays and the 1 × 32 matrix is the bias, the block's addend is the
    chunk's sum of the rows' addends. -/
theorem blockAdd_eq_chunkAdd (mpath : Mat 100000 256) (card : Mat 100000 128) (W : Mat 128 32) (b : Vec1 32)
    (xm : Mat 5000 256) (xc : Mat 5000 128) (b2 : Mat 1 32) (s : ℕ) (hs : s < 20)
    (hm : ∀ (r : Fin 5000) (p : Fin 256), xm (ix2 r p) = mpath (ix2 (rowOf ⟨s, hs⟩ r) p))
    (hc : ∀ (r : Fin 5000) (d : Fin 128), xc (ix2 r d) = card (ix2 (rowOf ⟨s, hs⟩ r) d))
    (hb : ∀ j : Fin 32, b2 (ix2 0 j) = b (ix1 j)) (p : Fin 256) (j : Fin 32) :
    blockAdd xm xc W b2 p j = chunkAdd (term mpath card W b p j) s := by
  rw [chunkAdd_of_lt _ s hs]
  unfold blockAdd term preact
  refine Finset.sum_congr rfl fun r _ => ?_
  rw [hm, hb]
  simp only [hc]

end Cert.PathSum

end
-- ==== Proof.KernelPayload.lean ====
/-
  The body's three payloads read at an index, on the extended reals.

  A matmul into a zero accumulator is, at an output entry, the sum over the contracted axis of the operands' products:
  the dense layer contracts the card block's columns with W's rows, the accumulation step contracts the ROWS of the
  metapath block with the rows of the activated block (the metapath block enters transposed), and the final product
  contracts the pools' columns with the accumulator's rows. So the step's payload at `(p, j)` is the old accumulator
  there plus the block's addend `blockAdd`, the reset block is zero, and the output payload is a row of pools times a
  column of the accumulator.
-/
import proofs.«110129_g73882027425809_cont_9to1c4b_278_2_alg».proof.Proof.Gen.KernelIdeal.Skeleton
import proofs.«110129_g73882027425809_cont_9to1c4b_278_2_alg».proof.Proof.PathSum
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Cert.PathSum
open Idealize.ShloMosaic Idealize.ShloMosaic.ValueIdx

/-! ## The three contractions' operand indices, axis by axis -/

-- the dense layer: the card block's axis 1 against W's axis 0
theorem dense_lhs_0 (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem dense_lhs_1 (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q
theorem dense_rhs_0 (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q
theorem dense_rhs_1 (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

-- the accumulation step: the metapath block's axis 0 against the activated block's axis 0
theorem gram_lhs_0 (i : S256x32.Idx) (q : dot_S5000x256_S5000x32_S256x32_0_0_1_1_n_n.contr.Idx) :
    (dot_S5000x256_S5000x32_S256x32_0_0_1_1_n_n.lhsIdx i q 0).val = (q ⟨0, by decide⟩).val :=
  dot_S5000x256_S5000x32_S256x32_0_0_1_1_n_n.lhsIdx_val_of_single rfl i q
theorem gram_lhs_1 (i : S256x32.Idx) (q : dot_S5000x256_S5000x32_S256x32_0_0_1_1_n_n.contr.Idx) :
    (dot_S5000x256_S5000x32_S256x32_0_0_1_1_n_n.lhsIdx i q 1).val = (i 0).val := by
  unfold DotDims.lhsIdx
  rw [dif_neg (show ¬(1 : Fin S5000x256.rank) ∈ dot_S5000x256_S5000x32_S256x32_0_0_1_1_n_n.lhsBatch by decide), dif_pos (show (1 : Fin S5000x256.rank) ∈ dot_S5000x256_S5000x32_S256x32_0_0_1_1_n_n.lhsNonContracting by decide)]
  rfl
theorem gram_rhs_0 (i : S256x32.Idx) (q : dot_S5000x256_S5000x32_S256x32_0_0_1_1_n_n.contr.Idx) :
    (dot_S5000x256_S5000x32_S256x32_0_0_1_1_n_n.rhsIdx i q 0).val = (q ⟨0, by decide⟩).val :=
  dot_S5000x256_S5000x32_S256x32_0_0_1_1_n_n.rhsIdx_val_of_single rfl i q
theorem gram_rhs_1 (i : S256x32.Idx) (q : dot_S5000x256_S5000x32_S256x32_0_0_1_1_n_n.contr.Idx) :
    (dot_S5000x256_S5000x32_S256x32_0_0_1_1_n_n.rhsIdx i q 1).val = (i 1).val := by
  unfold DotDims.rhsIdx
  rw [dif_neg (show ¬(1 : Fin S5000x32.rank) ∈ dot_S5000x256_S5000x32_S256x32_0_0_1_1_n_n.rhsBatch by decide), dif_pos (show (1 : Fin S5000x32.rank) ∈ dot_S5000x256_S5000x32_S256x32_0_0_1_1_n_n.rhsNonContracting by decide)]
  rfl

-- the final product: the pools' axis 1 against the accumulator's axis 0
theorem pool_lhs_0 (i : S4096x32.Idx) (q : dot_S4096x256_S256x32_S4096x32_1_0_0_1_n_n.contr.Idx) :
    (dot_S4096x256_S256x32_S4096x32_1_0_0_1_n_n.lhsIdx i q 0).val = (i 0).val := by
  unfold DotDims.lhsIdx
  rw [dif_neg (show ¬(0 : Fin S4096x256.rank) ∈ dot_S4096x256_S256x32_S4096x32_1_0_0_1_n_n.lhsBatch by decide), dif_pos (show (0 : Fin S4096x256.rank) ∈ dot_S4096x256_S256x32_S4096x32_1_0_0_1_n_n.lhsNonContracting by decide)]
  rfl
theorem pool_lhs_1 (i : S4096x32.Idx) (q : dot_S4096x256_S256x32_S4096x32_1_0_0_1_n_n.contr.Idx) :
    (dot_S4096x256_S256x32_S4096x32_1_0_0_1_n_n.lhsIdx i q 1).val = (q ⟨0, by decide⟩).val :=
  dot_S4096x256_S256x32_S4096x32_1_0_0_1_n_n.lhsIdx_val_of_single rfl i q
theorem pool_rhs_0 (i : S4096x32.Idx) (q : dot_S4096x256_S256x32_S4096x32_1_0_0_1_n_n.contr.Idx) :
    (dot_S4096x256_S256x32_S4096x32_1_0_0_1_n_n.rhsIdx i q 0).val = (q ⟨0, by decide⟩).val :=
  dot_S4096x256_S256x32_S4096x32_1_0_0_1_n_n.rhsIdx_val_of_single rfl i q
theorem pool_rhs_1 (i : S4096x32.Idx) (q : dot_S4096x256_S256x32_S4096x32_1_0_0_1_n_n.contr.Idx) :
    (dot_S4096x256_S256x32_S4096x32_1_0_0_1_n_n.rhsIdx i q 1).val = (i 1).val := by
  unfold DotDims.rhsIdx
  rw [dif_neg (show ¬(1 : Fin S256x32.rank) ∈ dot_S4096x256_S256x32_S4096x32_1_0_0_1_n_n.rhsBatch by decide), dif_pos (show (1 : Fin S256x32.rank) ∈ dot_S4096x256_S256x32_S4096x32_1_0_0_1_n_n.rhsNonContracting by decide)]
  rfl

/-! ## The three matmuls at an entry -/

/-- The dense layer's product at row `r`, column `j`: the card block's row times W's column. -/
theorem dense_apply (xc : FVec Ideal S5000x128 .f32) (W : FVec Ideal S128x32 .f32) (r : Fin 5000) (j : Fin 32) :
    matmul dot_S5000x128_S128x32_S5000x32_1_0_0_1_n_n none xc W (constant S5000x32 .f32 0x00000000#32) (ix2 r j)
      = ∑ d : Fin 128, xc (ix2 r d) * W (ix2 d j) := by
  simp only [matmul]
  rw [Ideal.matmul_constant_zero_apply, ← Equiv.sum_comp (contrEquiv1 dot_S5000x128_S128x32_S5000x32_1_0_0_1_n_n 128 rfl rfl).symm]
  refine Finset.sum_congr rfl fun k _ => ?_
  have hk := contrEquiv1_symm_val dot_S5000x128_S128x32_S5000x32_1_0_0_1_n_n 128 rfl rfl k
  have el : dot_S5000x128_S128x32_S5000x32_1_0_0_1_n_n.lhsIdx (ix2 r j) ((contrEquiv1 dot_S5000x128_S128x32_S5000x32_1_0_0_1_n_n 128 rfl rfl).symm k) = ix2 r k := funext fun a => Fin.ext (by
    match a with
    | ⟨0, _⟩ => exact dense_lhs_0 _ _
    | ⟨1, _⟩ => exact (dense_lhs_1 _ _).trans hk)
  have er : dot_S5000x128_S128x32_S5000x32_1_0_0_1_n_n.rhsIdx (ix2 r j) ((contrEquiv1 dot_S5000x128_S128x32_S5000x32_1_0_0_1_n_n 128 rfl rfl).symm k) = ix2 k j := funext fun a => Fin.ext (by
    match a with
    | ⟨0, _⟩ => exact (dense_rhs_0 _ _).trans hk
    | ⟨1, _⟩ => exact dense_rhs_1 _ _)
  rw [el, er]

/-- The accumulation step's product at `(p, j)`: column `p` of the metapath block times column `j` of the activated block,
    summed over the block's 5000 rows. -/
theorem gram_apply (xm : FVec Ideal S5000x256 .f32) (v : FVec Ideal S5000x32 .f32) (p : Fin 256) (j : Fin 32) :
    matmul dot_S5000x256_S5000x32_S256x32_0_0_1_1_n_n none xm v (constant S256x32 .f32 0x00000000#32) (ix2 p j)
      = ∑ r : Fin 5000, xm (ix2 r p) * v (ix2 r j) := by
  simp only [matmul]
  rw [Ideal.matmul_constant_zero_apply, ← Equiv.sum_comp (contrEquiv1 dot_S5000x256_S5000x32_S256x32_0_0_1_1_n_n 5000 rfl rfl).symm]
  refine Finset.sum_congr rfl fun k _ => ?_
  have hk := contrEquiv1_symm_val dot_S5000x256_S5000x32_S256x32_0_0_1_1_n_n 5000 rfl rfl k
  have el : dot_S5000x256_S5000x32_S256x32_0_0_1_1_n_n.lhsIdx (ix2 p j) ((contrEquiv1 dot_S5000x256_S5000x32_S256x32_0_0_1_1_n_n 5000 rfl rfl).symm k) = ix2 k p := funext fun a => Fin.ext (by
    match a with
    | ⟨0, _⟩ => exact (gram_lhs_0 _ _).trans hk
    | ⟨1, _⟩ => exact gram_lhs_1 _ _)
  have er : dot_S5000x256_S5000x32_S256x32_0_0_1_1_n_n.rhsIdx (ix2 p j) ((contrEquiv1 dot_S5000x256_S5000x32_S256x32_0_0_1_1_n_n 5000 rfl rfl).symm k) = ix2 k j := funext fun a => Fin.ext (by
    match a with
    | ⟨0, _⟩ => exact (gram_rhs_0 _ _).trans hk
    | ⟨1, _⟩ => exact gram_rhs_1 _ _)
  rw [el, er]

/-- The final product at batch row `b`, column `j`: the pools' row times the accumulator's column. -/
theorem pool_apply (xp : FVec Ideal S4096x256 .f32) (acc : FVec Ideal S256x32 .f32) (b : Fin 4096) (j : Fin 32) :
    matmul dot_S4096x256_S256x32_S4096x32_1_0_0_1_n_n none xp acc (constant S4096x32 .f32 0x00000000#32) (ix2 b j)
      = ∑ p : Fin 256, xp (ix2 b p) * acc (ix2 p j) := by
  simp only [matmul]
  rw [Ideal.matmul_constant_zero_apply, ← Equiv.sum_comp (contrEquiv1 dot_S4096x256_S256x32_S4096x32_1_0_0_1_n_n 256 rfl rfl).symm]
  refine Finset.sum_congr rfl fun k _ => ?_
  have hk := contrEquiv1_symm_val dot_S4096x256_S256x32_S4096x32_1_0_0_1_n_n 256 rfl rfl k
  have el : dot_S4096x256_S256x32_S4096x32_1_0_0_1_n_n.lhsIdx (ix2 b j) ((contrEquiv1 dot_S4096x256_S256x32_S4096x32_1_0_0_1_n_n 256 rfl rfl).symm k) = ix2 b k := funext fun a => Fin.ext (by
    match a with
    | ⟨0, _⟩ => exact pool_lhs_0 _ _
    | ⟨1, _⟩ => exact (pool_lhs_1 _ _).trans hk)
  have er : dot_S4096x256_S256x32_S4096x32_1_0_0_1_n_n.rhsIdx (ix2 b j) ((contrEquiv1 dot_S4096x256_S256x32_S4096x32_1_0_0_1_n_n 256 rfl rfl).symm k) = ix2 k j := funext fun a => Fin.ext (by
    match a with
    | ⟨0, _⟩ => exact (pool_rhs_0 _ _).trans hk
    | ⟨1, _⟩ => exact pool_rhs_1 _ _)
  rw [el, er]

/-- The bias, a 1 × 32 block, broadcast down the 5000 rows: entry `(r, j)` is the bias at `(0, j)`. -/
theorem bias_apply (b2 : FVec Ideal S1x32 .f32) (h1 : S1x32.ShapeCasts S1x32) (h2 : S1x32.Broadcasts S5000x32) (r : Fin 5000) (j : Fin 32) :
    broadcastTo S5000x32 (shapeCast S1x32 b2 h1) h2 (ix2 r j) = b2 (ix2 0 j) := by
  rw [shapeCast_self]
  exact broadcastTo_apply b2 h2 (ix2 r j) (ix2 0 j) (fun a => match a with
    | ⟨0, _⟩ => by show (0 : Nat) = if (1 : Nat) = 1 then 0 else r.val; rw [if_pos rfl]
    | ⟨1, _⟩ => by show j.val = if (32 : Nat) = 1 then 0 else j.val; rw [if_neg (by decide)])

/-! ## The payloads -/

/-- The reset block is zero everywhere. -/
theorem reset_apply (y : S256x32.Idx) : k0_pay1 (F := Ideal) y = 0 := by
  unfold k0_pay1
  rw [shapeCast_self]
  exact Ideal.ofBits_zero_f32

/-- The accumulation step at `(p, j)`: the old accumulator plus the block's addend. -/
theorem step_apply (xc : FVec Ideal S5000x128 .f32) (W : FVec Ideal S128x32 .f32) (b2 : FVec Ideal S1x32 .f32)
    (acc : FVec Ideal S256x32 .f32) (xm : FVec Ideal S5000x256 .f32) (p : Fin 256) (j : Fin 32) :
    k0_pay2 (F := Ideal) xc W b2 acc xm (ix2 p j) = acc (ix2 p j) + blockAdd xm xc W b2 p j := by
  unfold k0_pay2
  rw [shapeCast_self, addf_apply, gram_apply]
  unfold blockAdd
  refine congrArg (acc (ix2 p j) + ·) (Finset.sum_congr rfl fun r _ => ?_)
  refine congrArg (xm (ix2 r p) * ·) ?_
  rw [mulf_apply]
  show _ * Ideal.logistic _ = swish _
  rw [addf_apply, dense_apply, bias_apply]
  rfl

/-- The output payload at `(b, j)`: the pools' row `b` times the accumulator's column `j`. -/
theorem out_apply (xp : FVec Ideal S4096x256 .f32) (acc : FVec Ideal S256x32 .f32) (b : Fin 4096) (j : Fin 32) :
    k0_pay3 (F := Ideal) xp acc (ix2 b j) = ∑ p : Fin 256, xp (ix2 b p) * acc (ix2 p j) := by
  unfold k0_pay3
  exact pool_apply xp acc b j

end Cert.KernelIdeal.Payload

end
-- ==== Proof.KernelBlocks.lean ====
/-
  The blocks a grid point is given, read at an index of the whole arrays.

  At point `t` the metapath block and the card block are rows `5000 t … 5000 t + 4999` of their arrays (the index maps
  send the point to block `(t, 0)`), while W, the bias and the pools arrive whole at every point (block `(0, 0)`). The
  bias reaches the region as a 1 × 32 array, the reshape of the 32-vector: its entry `(0, j)` is the vector's entry `j`.
-/
import proofs.«110129_g73882027425809_cont_9to1c4b_278_2_alg».proof.Proof.Gen.KernelIdeal.Frame
import proofs.«110129_g73882027425809_cont_9to1c4b_278_2_alg».proof.Proof.PathSum
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Cert.PathSum
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The index maps, decided over the twenty points: the two streamed windows follow the point along the rows, the
    other four never move. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The five input blocks at point `t`, at their literal types. -/
abbrev mblk (c : Dev nD) (t : Fin cfg0.N) : Vec F S5000x256 .f32 := iblk m c 0 t
abbrev cblk (c : Dev nD) (t : Fin cfg0.N) : Vec F S5000x128 .f32 := iblk m c 1 t
abbrev wblk (c : Dev nD) (t : Fin cfg0.N) : Vec F S128x32 .f32 := iblk m c 2 t
abbrev bblk (c : Dev nD) (t : Fin cfg0.N) : Vec F S1x32 .f32 := iblk m c 3 t
abbrev pblk (c : Dev nD) (t : Fin cfg0.N) : Vec F S4096x256 .f32 := iblk m c 4 t

/-- Row `r` of the metapath block at point `t` is row `5000 t + r` of the metapath array. -/
theorem mblk_apply (c : Dev nD) (t : Fin cfg0.N) (ht : t.val < 20) (r : Fin 5000) (p : Fin 256) :
    mblk m c t (ix2 r p) = m ((c : Thread nD τ).loc main_arg1) (ix2 (rowOf ⟨t.val, ht⟩ r) p) := by
  obtain ⟨e0, e1, -⟩ := index_facts t
  show iblk m c 0 t (ix2 r p) = _
  unfold iblk
  rw [View.read_apply]
  show V m c main_arg1 _ = _
  rw [V_main_arg1]
  refine congrArg (m ((c : Thread nD τ).loc main_arg1)) (funext fun a => Fin.ext ?_)
  match a with
  | ⟨0, _⟩ => show win0_0.index t (0 : Fin 2) * 5000 + 1 * r.val = 5000 * t.val + r.val; omega
  | ⟨1, _⟩ => show win0_0.index t (1 : Fin 2) * 256 + 1 * p.val = p.val; omega

/-- Row `r` of the card block at point `t` is row `5000 t + r` of the card array. -/
theorem cblk_apply (c : Dev nD) (t : Fin cfg0.N) (ht : t.val < 20) (r : Fin 5000) (d : Fin 128) :
    cblk m c t (ix2 r d) = m ((c : Thread nD τ).loc main_arg2) (ix2 (rowOf ⟨t.val, ht⟩ r) d) := by
  obtain ⟨-, -, e0, e1, -⟩ := index_facts t
  show iblk m c 1 t (ix2 r d) = _
  unfold iblk
  rw [View.read_apply]
  show V m c main_arg2 _ = _
  rw [V_main_arg2]
  refine congrArg (m ((c : Thread nD τ).loc main_arg2)) (funext fun a => Fin.ext ?_)
  match a with
  | ⟨0, _⟩ => show win0_1.index t (0 : Fin 2) * 5000 + 1 * r.val = 5000 * t.val + r.val; omega
  | ⟨1, _⟩ => show win0_1.index t (1 : Fin 2) * 128 + 1 * d.val = d.val; omega

/-- The W block is W. -/
theorem wblk_apply (c : Dev nD) (t : Fin cfg0.N) (d : Fin 128) (j : Fin 32) :
    wblk m c t (ix2 d j) = m ((c : Thread nD τ).loc main_arg3) (ix2 d j) := by
  obtain ⟨-, -, -, -, e0, e1, -⟩ := index_facts t
  show iblk m c 2 t (ix2 d j) = _
  unfold iblk
  rw [View.read_apply]
  show V m c main_arg3 _ = _
  rw [V_main_arg3]
  refine congrArg (m ((c : Thread nD τ).loc main_arg3)) (funext fun a => Fin.ext ?_)
  match a with
  | ⟨0, _⟩ => show win0_2.index t (0 : Fin 2) * 128 + 1 * d.val = d.val; omega
  | ⟨1, _⟩ => show win0_2.index t (1 : Fin 2) * 32 + 1 * j.val = j.val; omega

/-- The pools block is the pools. -/
theorem pblk_apply (c : Dev nD) (t : Fin cfg0.N) (b : Fin 4096) (p : Fin 256) :
    pblk m c t (ix2 b p) = m ((c : Thread nD τ).loc main_arg0) (ix2 b p) := by
  obtain ⟨-, -, -, -, -, -, -, -, e0, e1, -⟩ := index_facts t
  show iblk m c 4 t (ix2 b p) = _
  unfold iblk
  rw [View.read_apply]
  show V m c main_arg0 _ = _
  rw [V_main_arg0]
  refine congrArg (m ((c : Thread nD τ).loc main_arg0)) (funext fun a => Fin.ext ?_)
  match a with
  | ⟨0, _⟩ => show win0_4.index t (0 : Fin 2) * 4096 + 1 * b.val = b.val; omega
  | ⟨1, _⟩ => show win0_4.index t (1 : Fin 2) * 256 + 1 * p.val = p.val; omega

/-- The 1 × 32 bias array the region finds is the reshape of the bias vector. -/
theorem bias_array (c : Dev nD) :
    (V m c main_v0 : S1x32.Idx → Elt F .f32) = shapeCast S1x32 (m ((c : Thread nD τ).loc main_arg4)) Facts₀.shapeCasts_S32_S1x32 := by
  dsimp only [V, hostOps0]
  after_results
  rfl

/-- Entry `(0, j)` of the bias block is entry `j` of the bias vector. -/
theorem bblk_apply (c : Dev nD) (t : Fin cfg0.N) (j : Fin 32) :
    bblk m c t (ix2 0 j) = m ((c : Thread nD τ).loc main_arg4) (ix1 j) := by
  obtain ⟨-, -, -, -, -, -, e0, e1, -⟩ := index_facts t
  show iblk m c 3 t (ix2 0 j) = _
  unfold iblk
  rw [View.read_apply]
  show V m c main_v0 _ = _
  rw [bias_array]
  refine shapeCast_apply _ _ _ (ix1 j) ?_
  rw [Shape.rowMajor_val_one, Shape.rowMajor_val_two]
  show j.val = (win0_3.index t (0 : Fin 2) * 1 + 1 * 0) * 32 + (win0_3.index t (1 : Fin 2) * 32 + 1 * j.val)
  omega

end Cert.KernelIdeal.Blocks

end
-- ==== Proof.KernelValue.lean ====
/-
  The kernel's result array, at the ideal instance, is `result` of its five arguments.

  Point `n` adds to entry `(p, j)` of the scratch accumulator the sum, over the 5000 rows of chunk `n`, of the metapath
  weight times the swish of the dense layer (`addend`). The first point adds it to the zero block it has just stored, every
  later point to what the point before left, so after point `n` the accumulator holds the sum of the addends of points
  `0 … n` (`acc_after`): the generated fold over the points, unrolled by the library's law for a fold of additions. After
  the last point that is the sum over all twenty chunks, which is the sum over all rows: the path embedding. The last
  point is the only one that writes the output block back; the block is the whole output array, and what it holds is the
  pools times that accumulator: `result`.
-/
import proofs.«110129_g73882027425809_cont_9to1c4b_278_2_alg».proof.Proof.Gen.KernelIdeal.Value
import proofs.«110129_g73882027425809_cont_9to1c4b_278_2_alg».proof.Proof.KernelPieces
import proofs.«110129_g73882027425809_cont_9to1c4b_278_2_alg».proof.Proof.KernelPayload
import proofs.«110129_g73882027425809_cont_9to1c4b_278_2_alg».proof.Proof.KernelBlocks
import proofs.«110129_g73882027425809_cont_9to1c4b_278_2_alg».proof.Proof.PathSum

noncomputable section

namespace Cert.KernelIdeal.Embedding

open Cert.KernelIdeal Cert.KernelIdeal.Gen Cert.KernelIdeal.Value Cert.KernelIdeal.Blocks Cert.PathSum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The five arguments as launched, as matrices of extended reals. -/
abbrev argPools (c : Dev nD) : Mat 4096 256 := m ((c : Thread nD τ).loc main_arg0)
abbrev argMeta (c : Dev nD) : Mat 100000 256 := m ((c : Thread nD τ).loc main_arg1)
abbrev argCard (c : Dev nD) : Mat 100000 128 := m ((c : Thread nD τ).loc main_arg2)
abbrev argW (c : Dev nD) : Mat 128 32 := m ((c : Thread nD τ).loc main_arg3)
abbrev argBias (c : Dev nD) : Vec1 32 := m ((c : Thread nD τ).loc main_arg4)

/-- What point `n` adds to entry `i` of the accumulator: chunk `n`'s sum of the rows' addends. -/
def addend (c : Dev nD) (n : ℕ) (i : S256x32.Idx) : EReal :=
  chunkAdd (term (argMeta m c) (argCard m c) (argW m c) (argBias m c) (i 0) (i 1)) n

/-- The W block at any point is W. -/
theorem wblk_eq (c : Dev nD) (t : Fin cfg0.N) : (wblk m c t : Mat 128 32) = argW m c := funext fun i => by
  obtain ⟨d, j, rfl⟩ : ∃ (d : Fin 128) (j : Fin 32), i = ix2 d j := ⟨i 0, i 1, eq_ix2 i⟩
  exact wblk_apply m c t d j

/-- The step's payload over the blocks of point `t` adds that point's addend to the accumulator it is given. -/
theorem step_at (c : Dev nD) (t : Fin cfg0.N) (acc : FVec Ideal S256x32 .f32) (i : S256x32.Idx) :
    k0_pay2 (F := Ideal) (cblk m c t) (wblk m c t) (bblk m c t) acc (mblk m c t) i = acc i + addend m c t.val i := by
  have ht : t.val < 20 := lt_of_lt_of_eq t.isLt (show cfg0.N = 20 from N_0)
  obtain ⟨p, j, rfl⟩ : ∃ (p : Fin 256) (j : Fin 32), i = ix2 p j := ⟨i 0, i 1, eq_ix2 i⟩
  rw [Payload.step_apply]
  refine congrArg (acc (ix2 p j) + ·) ?_
  have hW : blockAdd (mblk m c t) (cblk m c t) (wblk m c t) (bblk m c t) p j
      = blockAdd (mblk m c t) (cblk m c t) (argW m c) (bblk m c t) p j := by rw [wblk_eq]
  rw [hW]
  exact blockAdd_eq_chunkAdd (argMeta m c) (argCard m c) (argW m c) (argBias m c) (mblk m c t) (cblk m c t) (bblk m c t)
    t.val ht (fun r p => mblk_apply m c t ht r p) (fun r d => cblk_apply m c t ht r d) (fun j => bblk_apply m c t j) p j

/-- The first point leaves the step's payload over the zero block. -/
theorem scratch_at_first (c : Dev nD) (h : 0 < cfg0.N) (acc : Vec Ideal S256x32 .f32) :
    scAt0_0 m c 0 h acc = k0_pay2 (cblk m c ⟨0, h⟩) (wblk m c ⟨0, h⟩) (bblk m c ⟨0, h⟩) (k0_pay1 (F := Ideal)) (mblk m c ⟨0, h⟩) := by
  unfold scAt0_0
  rw [dif_pos (show 0 % 20 = 0 from rfl), dif_neg (show ¬0 % 20 = 19 by decide)]
  exact Pieces.scratch_first (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) scM0_0 (Memref.isWhole_whole _) _ _ (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N))

/-- Every later point leaves the step's payload over what it was given. -/
theorem scratch_at_later (c : Dev nD) (n : ℕ) (h : n < cfg0.N) (hpos : 0 < n) (acc : Vec Ideal S256x32 .f32) :
    scAt0_0 m c n h acc = k0_pay2 (cblk m c ⟨n, h⟩) (wblk m c ⟨n, h⟩) (bblk m c ⟨n, h⟩) acc (mblk m c ⟨n, h⟩) := by
  have hN : n < 20 := lt_of_lt_of_eq h (show cfg0.N = 20 from N_0)
  unfold scAt0_0
  rw [dif_neg (show ¬n % 20 = 0 by omega)]
  by_cases h1 : n % 20 = 19
  · rw [dif_pos h1]
    exact Pieces.scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc
  · rw [dif_neg h1]
    exact Pieces.scratch_mid (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc

/-- After point `n` the accumulator holds the sum of the addends of points `0 … n`. -/
theorem acc_after (c : Dev nD) (n : ℕ) (hn : n < cfg0.N) (i : S256x32.Idx) :
    (outsAt0 m c n hn).2 i = ∑ s ∈ Finset.range (n + 1), addend m c s i := by
  have hN : n < 20 := lt_of_lt_of_eq hn (show cfg0.N = 20 from N_0)
  rw [soutsAt0_0_sweep m c n hn]
  have key := Pipeline.accAt_add_apply (N := cfg0.N) (ι := S256x32.Idx) (β := EReal)
    (fun n h => scAt0_0 m c n h (VS0_0.read (Elt Ideal) VS0_0.junk)) (scAt0_0 m c) (fun _ => 0) (fun s i => addend m c s i) 0 19
    (fun h i => by
      show scAt0_0 m c 0 h _ i = 0 + addend m c 0 i
      rw [scratch_at_first, step_at, Payload.reset_apply])
    (fun n h acc i hb he => by
      show scAt0_0 m c n h acc i = acc i + addend m c n i
      rw [scratch_at_later m c n h hb, step_at])
    n (by omega) (by omega) i
  rw [key]
  simp only [zero_add]

/-- The result, as contents of the output array. -/
abbrev out (c : Dev nD) : Buf (Elt Ideal) ((c : Thread nD τ).loc main_v1) :=
  result (argPools m c) (argMeta m c) (argCard m c) (argW m c) (argBias m c)

/-- After the last point the accumulator is the path embedding. -/
theorem acc_last (c : Dev nD) (t : Fin cfg0.N) (hv : t.val = 19) (hlt : t.val - 1 < cfg0.N) (p : Fin 256) (j : Fin 32) :
    k0_pay2 (F := Ideal) (cblk m c t) (wblk m c t) (bblk m c t) (outsAt0 m c (t.val - 1) hlt).2 (mblk m c t) (ix2 p j)
      = pathEmb (argMeta m c) (argCard m c) (argW m c) (argBias m c) p j := by
  -- the twenty chunks' sums are those of the first nineteen plus the last one's
  have hsplit : ∑ s ∈ Finset.range 20, chunkAdd (term (argMeta m c) (argCard m c) (argW m c) (argBias m c) p j) s
      = ∑ s ∈ Finset.range (t.val - 1 + 1), chunkAdd (term (argMeta m c) (argCard m c) (argW m c) (argBias m c) p j) s
        + chunkAdd (term (argMeta m c) (argCard m c) (argW m c) (argBias m c) p j) t.val := by
    have h2 : t.val - 1 + 1 = 19 := by omega
    rw [h2, hv]
    exact Finset.sum_range_succ _ 19
  rw [step_at, acc_after]
  unfold pathEmb
  rw [← sum_range_chunkAdd, hsplit]
  rfl

/-- An index of the output array is in the output window's block at point `t` when each coordinate is in the block's range. -/
theorem mem_out_blk (t : Fin cfg0.N) (i : S4096x32.Idx) :
    i ∈ ((cfg0.win 5).blk t).view.set ↔ ∀ a : Fin 2, win0_5.index t a * S4096x32.size a ≤ (i a).val ∧ (i a).val < win0_5.index t a * S4096x32.size a + S4096x32.size a := by
  show i ∈ ((View.whole main_v1).slice (win0_5.rect t)).set ↔ _
  rw [View.set_slice_whole, Rect.mem_set_unit]
  exact Iff.rfl

/-- The one write-back, at the last point, writes the output block of `result`: the block is the whole array. -/
theorem flushed_eq (c : Dev nD) (t : Fin cfg0.N) (hf : (cfg0.win 5).flush t = true) :
    (dats m 0 c).flushed 5 t = ((cfg0.win 5).blk t).view.read (Elt Ideal) (out m c) := by
  have hN : t.val < 20 := lt_of_lt_of_eq t.isLt (show cfg0.N = 20 from N_0)
  have h1 : t.val % 20 = 19 := (flush0_5 t).mp hf
  have h0 : ¬t.val % 20 = 0 := by omega
  have hv : t.val = 19 := by omega
  obtain ⟨-, -, -, -, -, -, -, -, -, -, e0, e1⟩ := index_facts t
  rw [flushed5_C m c t h0 h1]
  rw [Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2]
  funext y
  obtain ⟨b, j, rfl⟩ : ∃ (b : Fin 4096) (j : Fin 32), y = ix2 b j := ⟨y 0, y 1, eq_ix2 y⟩
  show k0_pay3 (F := Ideal) (pblk m c t) (k0_pay2 (cblk m c t) (wblk m c t) (bblk m c t) (outsAt0 m c (t.val - 1) _).2 (mblk m c t)) (ix2 b j)
    = out m c (((cfg0.win 5).blk t).view.emb (ix2 b j))
  have hemb : ((cfg0.win 5).blk t).view.emb (ix2 b j) = ix2 b j := by
    funext a; apply Fin.ext
    match a with
    | ⟨0, _⟩ => show win0_5.index t (0 : Fin 2) * 4096 + 1 * b.val = b.val; omega
    | ⟨1, _⟩ => show win0_5.index t (1 : Fin 2) * 32 + 1 * j.val = j.val; omega
  rw [hemb, Payload.out_apply]
  show _ = ∑ p : Fin 256, argPools m c (ix2 b p) * pathEmb (argMeta m c) (argCard m c) (argW m c) (argBias m c) p j
  refine Finset.sum_congr rfl fun p _ => ?_
  rw [pblk_apply, acc_last m c t hv]

/-- So the output array ends holding `result`. -/
theorem final_out (c : Dev nD) : (dats m 0 c).arrAt 5 cfg0.N = out m c :=
  (dats m 0 c).arrAt_eq_of_cover 5 (out m c) (flushed_eq m c) fun i => by
    have hlast : 19 < cfg0.N := by rw [show cfg0.N = 20 from N_0]; decide
    refine ⟨⟨19, hlast⟩, (flush0_5 ⟨19, hlast⟩).mpr rfl, ?_⟩
    obtain ⟨-, -, -, -, -, -, -, -, -, -, e0, e1⟩ := index_facts ⟨19, hlast⟩
    rw [mem_out_blk]
    intro a
    have hi0 : (i 0).val < 4096 := (i 0).isLt
    have hi1 : (i 1).val < 32 := (i 1).isLt
    match a with
    | ⟨0, _⟩ => show win0_5.index ⟨19, hlast⟩ (0 : Fin 2) * 4096 ≤ (i 0).val ∧ (i 0).val < win0_5.index ⟨19, hlast⟩ (0 : Fin 2) * 4096 + 4096; omega
    | ⟨1, _⟩ => show win0_5.index ⟨19, hlast⟩ (1 : Fin 2) * 32 ≤ (i 1).val ∧ (i 1).val < win0_5.index ⟨19, hlast⟩ (1 : Fin 2) * 32 + 32; omega

/-- The run, read: the output array at `result` of the arguments, the arguments unchanged. -/
theorem run : θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_out m c), (h c).2⟩) (run_blocks m ρ)

end Cert.KernelIdeal.Embedding

end
-- ==== Proof.RefSide.lean ====
/-
  The reference computes `result`: its last stage, read at an index through the generated read lemmas, is the batch
  pools' row times the path embedding's column, the path embedding the sum over all rows of the transposed metapath
  weight times the swish of the dense layer. The reference writes the logistic function as `1 / (1 + exp (-x))`, which on
  the extended reals is the logistic function's definition; the word `0x3F800000` is the real number one.
-/
import proofs.«110129_g73882027425809_cont_9to1c4b_278_2_alg».proof.Proof.Gen.ReferenceIdeal.Read
import proofs.«110129_g73882027425809_cont_9to1c4b_278_2_alg».proof.Proof.PathSum

noncomputable section

namespace Cert.ReferenceIdeal.RefValue

open Cert.ReferenceIdeal Cert.ReferenceIdeal.Read Cert.PathSum
open Idealize.ShloMosaic Idealize.ShloMosaic.ValueIdx

/-- The f32 word of `1.0` denotes the real number one. -/
theorem one_f32 : Ideal.ofBits .f32 0x3F800000#32 = 1 := by
  simp [Ideal.ofBits, Ideal.ieee, -EReal.coe_mul]; norm_num

/-- The reference's quotient `1 / (1 + exp (-x))` is the logistic function of `x`. -/
theorem logistic_expansion (x : EReal) : Ideal.div 1 (1 + Ideal.exp (-x)) = Ideal.logistic x := rfl

/-- The reference's last stage is `result` of the five arguments. -/
theorem stage_eq_result (pools : (⟨S4096x256, .f32⟩ : BufTy).Contents (Elt Ideal)) (mpath : (⟨S100000x256, .f32⟩ : BufTy).Contents (Elt Ideal))
    (card : (⟨S100000x128, .f32⟩ : BufTy).Contents (Elt Ideal)) (W : (⟨S128x32, .f32⟩ : BufTy).Contents (Elt Ideal))
    (b : (⟨S32, .f32⟩ : BufTy).Contents (Elt Ideal)) :
    val_main_v13 (F := Ideal) pools mpath card W b = result pools mpath card W b := by
  funext i
  rw [val_main_v13_apply]
  unfold result
  refine Finset.sum_congr rfl fun p _ => ?_
  have e0 : lidx_main_v13 i p = ix2 (i 0) p := funext fun a => by
    match a with
    | ⟨0, _⟩ => rfl
    | ⟨1, _⟩ => rfl
  rw [e0, val_main_v12_apply]
  refine congrArg (pools (ix2 (i 0) p) * ·) ?_
  unfold pathEmb
  refine Finset.sum_congr rfl fun n _ => ?_
  -- the indices the stages compose, at output entry (i 0, i 1), path row p and card row n
  have e1 : idx_main_v11 (lidx_main_v12 (ridx_main_v13 i p) n) = ix2 n p := funext fun a => by
    match a with
    | ⟨0, _⟩ => rfl
    | ⟨1, _⟩ => rfl
  have e2 : ∀ k : Fin 128, lidx_main_v0 (ridx_main_v12 (ridx_main_v13 i p) n) k = ix2 n k := fun k => funext fun a => by
    match a with
    | ⟨0, _⟩ => rfl
    | ⟨1, _⟩ => rfl
  have e3 : ∀ k : Fin 128, ridx_main_v0 (ridx_main_v12 (ridx_main_v13 i p) n) k = ix2 k (i 1) := fun k => funext fun a => by
    match a with
    | ⟨0, _⟩ => rfl
    | ⟨1, _⟩ => rfl
  have e4 : idx_main_v1 (idx_main_v2 (ridx_main_v12 (ridx_main_v13 i p) n)) = ix1 (i 1) := funext fun a => by
    match a with
    | ⟨0, _⟩ => rfl
  rw [val_main_v11_apply, e1, val_main_v10_apply, val_main_v9_apply, val_main_v8_apply, val_main_cst_0_apply,
    val_main_v7_apply, val_main_v6_apply, val_main_cst_apply, val_main_v5_apply, val_main_v4_apply, val_main_v3_apply,
    val_main_v2_apply, val_main_v1_apply, e4, val_main_v0_apply]
  simp only [e2, e3]
  unfold term swish preact
  simp only [Ideal.mulf_def, Ideal.addf_def, Ideal.hostDivf_def, Ideal.hostUnary_exp_def, Ideal.hostNegf_def, Ideal.negf_def,
    Ideal.ofBits_def, one_f32, logistic_expansion]
  rfl

end Cert.ReferenceIdeal.RefValue

end
-- ==== Proof.lean ====
/-
  The fused metapath-embedding kernel against its jnp reference, over the extended reals.

  Both programs compute `out[b, j] = ∑ p, pools[b, p] · path[p, j]` with
  `path[p, j] = ∑ n, metapath[n, p] · swish ((∑ d, card[n, d] · W[d, j]) + bias[j])`, swish `x · σ(x)`.
  The reference does it with three whole matrix products (the dense layer, the transposed metapath against the activated
  rows, the pools against the path embedding) and writes the logistic function as `1 / (1 + exp (-x))`, which on the
  extended reals is the logistic function itself. The kernel streams the 100000 rows in twenty chunks of 5000: each grid
  point adds its chunk's part of `path` into a scratch accumulator (reset to zero at the first point), and the last point
  multiplies the pools into the finished accumulator and is the only one to write the output back. The two agree because a
  sum over the rows is the sum over the chunks of the chunks' sums, and adding to zero changes nothing: commutativity and
  associativity of addition only, so the inputs' finiteness is never used.

  The three frames are the generated ones (the reference's is its generated run with the result dropped), the
  idealization rewrote nothing, and the value claim sets the kernel's run (`KernelValue`) beside the reference's
  (`RefSide`), both at `PathSum.result` of arguments that agree.
-/
import proofs.«110129_g73882027425809_cont_9to1c4b_278_2_alg».proof.Defs
import proofs.«110129_g73882027425809_cont_9to1c4b_278_2_alg».proof.Proof.Gen.Kernel
import proofs.«110129_g73882027425809_cont_9to1c4b_278_2_alg».proof.Proof.Gen.Kernel.Skeleton
import proofs.«110129_g73882027425809_cont_9to1c4b_278_2_alg».proof.Proof.Gen.Kernel.Launch
import proofs.«110129_g73882027425809_cont_9to1c4b_278_2_alg».proof.Proof.Gen.Kernel.Points
import proofs.«110129_g73882027425809_cont_9to1c4b_278_2_alg».proof.Proof.Gen.Kernel.Frame
import proofs.«110129_g73882027425809_cont_9to1c4b_278_2_alg».proof.Proof.Gen.KernelIdeal
import proofs.«110129_g73882027425809_cont_9to1c4b_278_2_alg».proof.Proof.Gen.KernelIdeal.Skeleton
import proofs.«110129_g73882027425809_cont_9to1c4b_278_2_alg».proof.Proof.Gen.KernelIdeal.Launch
import proofs.«110129_g73882027425809_cont_9to1c4b_278_2_alg».proof.Proof.Gen.KernelIdeal.Points
import proofs.«110129_g73882027425809_cont_9to1c4b_278_2_alg».proof.Proof.Gen.KernelIdeal.Frame
import proofs.«110129_g73882027425809_cont_9to1c4b_278_2_alg».proof.Proof.Gen.ReferenceIdeal
import proofs.«110129_g73882027425809_cont_9to1c4b_278_2_alg».proof.Proof.Gen.Pre_finite_inputs
import proofs.«110129_g73882027425809_cont_9to1c4b_278_2_alg».proof.Proof.Gen.KernelIdeal.Value
import proofs.«110129_g73882027425809_cont_9to1c4b_278_2_alg».proof.Proof.Gen.ReferenceIdeal.Run
import proofs.«110129_g73882027425809_cont_9to1c4b_278_2_alg».proof.Proof.Gen.ReferenceIdeal.Read
import proofs.«110129_g73882027425809_cont_9to1c4b_278_2_alg».proof.Proof.KernelValue
import proofs.«110129_g73882027425809_cont_9to1c4b_278_2_alg».proof.Proof.RefSide
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From arguments that agree both programs end with `result` of them: the kernel's output array by the accumulation
    over the twenty chunks, the reference's last stage read index by index. -/
theorem algebraic : Cert.algebraic_KernelIdeal_ReferenceIdeal := by
  intro m ρ m' ρ' _ hagree
  refine ⟨fun c => Cert.KernelIdeal.Embedding.out m c, Cert.KernelIdeal.Embedding.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.stage_eq_result, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
